-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S32x704512 : Shape := ⟨2, ![32, 704512]⟩
abbrev S1x704512 : Shape := ⟨2, ![1, 704512]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1x704512 : S_.BroadcastsInDim S1x704512 (![] : Fin 0 → Fin S1x704512.rank)
  reducesTo_S1x704512_S_d0_1 : S1x704512.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4x2048x4096 .f32) (main_arg1 : IVec S32x704512 32) (main_arg2 : FVec F S1x704512 .f32) (main_arg3 : FVec F S1x704512 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1x704512 .f32 := Host.absf main_arg2
  let main_cst_0 : FVec F S_ .f32 := constant S_ .f32 0x7F800000#32
  let main_v5 : FVec F S1x704512 .f32 := broadcastInDim S1x704512 ![] bcast_S_S1x704512 main_cst_0
  let main_v6 : IVec S1x704512 1 := cmpf .olt main_v4 main_v5
  let main_c_1 : IVec S_ 1 := constantI S_ 1 1#1
  let main_v7 : IVec S_ 1 := (fun x v => Host.reduce IntOp.andi x v reducesTo_S1x704512_S_d0_1 h_S_) main_v6 main_c_1
  let main_v8 : IVec S_ 1 := andi main_v3 main_v7
  let main_v9 : FVec F S1x704512 .f32 := Host.absf main_arg3
  let main_cst_2 : FVec F S_ .f32 := constant S_ .f32 0x7F800000#32
  let main_v10 : FVec F S1x704512 .f32 := broadcastInDim S1x704512 ![] bcast_S_S1x704512 main_cst_2
  let main_v11 : IVec S1x704512 1 := cmpf .olt main_v9 main_v10
  let main_c_3 : IVec S_ 1 := constantI S_ 1 1#1
  let main_v12 : IVec S_ 1 := (fun x v => Host.reduce IntOp.andi x v reducesTo_S1x704512_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4x2048x4096 : Shape := ⟨3, ![4, 2048, 4096]⟩
abbrev S32x704512 : Shape := ⟨2, ![32, 704512]⟩
abbrev S1x704512 : Shape := ⟨2, ![1, 704512]⟩
abbrev S11008 : Shape := ⟨1, ![11008]⟩
abbrev S64x704512 : Shape := ⟨2, ![64, 704512]⟩
abbrev S32x11008 : Shape := ⟨2, ![32, 11008]⟩
abbrev S1x11008 : Shape := ⟨2, ![1, 11008]⟩
abbrev S64x11008 : Shape := ⟨2, ![64, 11008]⟩
abbrev S11008x4096 : Shape := ⟨2, ![11008, 4096]⟩
abbrev S8192x4096 : Shape := ⟨2, ![8192, 4096]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S4x2048x11008 : Shape := ⟨3, ![4, 2048, 11008]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S32x704512, .i32⟩
  | .hbm, ⟨2, _⟩ => ⟨S1x704512, .f32⟩
  | .hbm, ⟨3, _⟩ => ⟨S1x704512, .f32⟩
  | .hbm, ⟨4, _⟩ => ⟨S11008, .f32⟩
  | .hbm, ⟨5, _⟩ => ⟨S64x704512, .bf16⟩
  | .hbm, ⟨6, _⟩ => ⟨S11008x4096, .bf16⟩
  | .hbm, ⟨7, _⟩ => ⟨S8192x4096, .f32⟩
  | .hbm, ⟨8, _⟩ => ⟨S8192x4096, .bf16⟩
  | .hbm, ⟨9, _⟩ => ⟨S1x11008, .f32⟩
  | .hbm, ⟨10, _⟩ => ⟨S8192x11008, .f32⟩
  | .hbm, ⟨11, _⟩ => ⟨S4x2048x11008, .f32⟩
  | .local _ .vmem, ⟨0, _⟩ => ⟨S32x11008, .i32⟩
  | .local _ .vmem, ⟨1, _⟩ => ⟨S32x11008, .i32⟩
  | .local _ .vmem, ⟨2, _⟩ => ⟨S1x11008, .f32⟩
  | .local _ .vmem, ⟨3, _⟩ => ⟨S1x11008, .f32⟩
  | .local _ .vmem, ⟨4, _⟩ => ⟨S1x11008, .f32⟩
  | .local _ .vmem, ⟨5, _⟩ => ⟨S1x11008, .f32⟩
  | .local _ .vmem, ⟨6, _⟩ => ⟨S64x11008, .bf16⟩
  | .local _ .vmem, ⟨7, _⟩ => ⟨S64x11008, .bf16⟩
  | .local _ .vmem, ⟨8, _⟩ => ⟨S1024x4096, .bf16⟩
  | .local _ .vmem, ⟨9, _⟩ => ⟨S1024x4096, .bf16⟩
  | .local _ .vmem, ⟨10, _⟩ => ⟨S256x4096, .bf16⟩
  | .local _ .vmem, ⟨11, _⟩ => ⟨S256x4096, .bf16⟩
  | .local _ .vmem, ⟨12, _⟩ => ⟨S1x256, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x11008 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x11008 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x11008 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x11008 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S32x11008_S32x11008_0_0 : ∀ a, (![0, 0] : Fin 2 → Nat) a + S32x11008.size a ≤ S32x11008.size a
  h_S32x11008 : 0 < S32x11008.numel
  inb_S1x11008_S1x11008_0_0 : ∀ a, (![0, 0] : Fin 2 → Nat) a + S1x11008.size a ≤ S1x11008.size a
  h_S1x11008 : 0 < S1x11008.numel
  broadcasts_S1x11008_S32x11008 : S1x11008.Broadcasts S32x11008
  bitsLt_bf16_f32 : FTy.bits .bf16 < FTy.bits .f32
  inb_S64x11008_S32x11008_0_0 : ∀ a, (![0, 0] : Fin 2 → Nat) a + S32x11008.size a ≤ S64x11008.size a
  packedbf16_S64x11008_S32x11008_0_0 : (Rect.unit (s := S64x11008) ![0, 0] S32x11008.size inb_S64x11008_S32x11008_0_0).PackedRows (EltTy.packing .bf16)
  inb_S64x11008_S32x11008_32_0 : ∀ a, (![32, 0] : Fin 2 → Nat) a + S32x11008.size a ≤ S64x11008.size a
  packedbf16_S64x11008_S32x11008_32_0 : (Rect.unit (s := S64x11008) ![32, 0] S32x11008.size inb_S64x11008_S32x11008_32_0).PackedRows (EltTy.packing .bf16)
  shapeCasts_S64x704512_S11008x4096 : S64x704512.ShapeCasts S11008x4096
  shapeCasts_S4x2048x4096_S8192x4096 : S4x2048x4096.ShapeCasts S8192x4096
  shapeCasts_S11008_S1x11008 : S11008.ShapeCasts S1x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x11008_S4x2048x11008 : S8192x11008.ShapeCasts S4x2048x11008
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x11008.size a ≤ S32x704512.size a
  hwx0_0 : ∀ i : grid0.Coords, EltTy.bits .i32 = 32 ∨ (Rect.block (s := S32x704512) S32x11008.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x11008.size a ≤ S1x704512.size a
  hwx0_1 : ∀ i : grid0.Coords, EltTy.bits .f32 = 32 ∨ (Rect.block (s := S1x704512) S1x11008.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x11008.size a ≤ S1x704512.size a
  hwx0_2 : ∀ i : grid0.Coords, EltTy.bits .f32 = 32 ∨ (Rect.block (s := S1x704512) S1x11008.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x11008.size a ≤ S64x704512.size a
  hwx0_3 : ∀ i : grid0.Coords, EltTy.bits .bf16 = 32 ∨ (Rect.block (s := S64x704512) S64x11008.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .bf16 = 32 ∨ (Rect.block (s := S11008x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x11008.size a
  hwx1_2 : ∀ i : grid1.Coords, EltTy.bits .f32 = 32 ∨ (Rect.block (s := S1x11008) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x11008.size a
  hwx1_3 : ∀ i : grid1.Coords, EltTy.bits .f32 = 32 ∨ (Rect.block (s := S8192x11008) S1024x256.size (cc1_transform_3 i) (hinb1_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_arg1) S32x11008.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x11008.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x11008.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x11008.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S32x704512 : Shape := ⟨2, ![32, 704512]⟩
abbrev S1x704512 : Shape := ⟨2, ![1, 704512]⟩
abbrev S11008 : Shape := ⟨1, ![11008]⟩
abbrev S_ : Shape := ⟨0, ![]⟩
abbrev S64x704512 : Shape := ⟨2, ![64, 704512]⟩
abbrev S11008x4096 : Shape := ⟨2, ![11008, 4096]⟩
abbrev S4x2048x11008 : Shape := ⟨3, ![4, 2048, 11008]⟩
abbrev S1x1x11008 : Shape := ⟨3, ![1, 1, 11008]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S32x704512, .i32⟩
  | .hbm, ⟨2, _⟩ => ⟨S1x704512, .f32⟩
  | .hbm, ⟨3, _⟩ => ⟨S1x704512, .f32⟩
  | .hbm, ⟨4, _⟩ => ⟨S11008, .f32⟩
  | .hbm, ⟨5, _⟩ => ⟨S_, .i32⟩
  | .hbm, ⟨6, _⟩ => ⟨S32x704512, .i32⟩
  | .hbm, ⟨7, _⟩ => ⟨S32x704512, .i32⟩
  | .hbm, ⟨8, _⟩ => ⟨S_, .i32⟩
  | .hbm, ⟨9, _⟩ => ⟨S32x704512, .i32⟩
  | .hbm, ⟨10, _⟩ => ⟨S32x704512, .i32⟩
  | .hbm, ⟨11, _⟩ => ⟨S_, .i32⟩
  | .hbm, ⟨12, _⟩ => ⟨S32x704512, .i32⟩
  | .hbm, ⟨13, _⟩ => ⟨S32x704512, .i32⟩
  | .hbm, ⟨14, _⟩ => ⟨S64x704512, .i32⟩
  | .hbm, ⟨15, _⟩ => ⟨S64x704512, .f32⟩
  | .hbm, ⟨16, _⟩ => ⟨S64x704512, .f32⟩
  | .hbm, ⟨17, _⟩ => ⟨S64x704512, .f32⟩
  | .hbm, ⟨18, _⟩ => ⟨S64x704512, .f32⟩
  | .hbm, ⟨19, _⟩ => ⟨S64x704512, .f32⟩
  | .hbm, ⟨20, _⟩ => ⟨S11008x4096, .f32⟩
  | .hbm, ⟨21, _⟩ => ⟨S4x2048x11008, .f32⟩
  | .hbm, ⟨22, _⟩ => ⟨S1x1x11008, .f32⟩
  | .hbm, ⟨23, _⟩ => ⟨S4x2048x11008, .f32⟩
  | .hbm, ⟨24, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S32x704512 : S_.BroadcastsInDim S32x704512 (![] : Fin 0 → Fin S32x704512.rank)
  concatenates_S32x704512_S32x704512_S64x704512_d0 : Shape.Concatenates [S32x704512, S32x704512] S64x704512 0
  bcast_S1x704512_S64x704512_0_1 : S1x704512.BroadcastsInDim S64x704512 (![0, 1] : Fin 2 → Fin S64x704512.rank)
  shapeCasts_S64x704512_S11008x4096 : S64x704512.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Spec.lean ====
/-
  What both programs compute, as functions of the five argument arrays over the extended reals.

  The packed array `wq : [32, 704512]` holds two 4-bit codes per word: bits 4..7 (the high nibble) and bits 0..3 (the low
  nibble). The unpacked array `[64, 704512]` has the high nibbles in rows 0..31 and the low nibbles in rows 32..63; each code,
  read as an integer, is shifted by the column's zero point and multiplied by the column's scale. Read in row-major order as
  `[11008, 4096]` this is the weight matrix `W`, and the result is `out[b, s, o] = (∑ k, x[b, s, k] · W[o, k]) + bias[o]`.
-/
import Idealize.ShloMosaic.PureOps.Ideal
import Idealize.ShloMosaic.Lib.ValueIdx

noncomputable section

open scoped BigOperators

namespace Cert.Hqq

open Idealize.ShloMosaic Idealize.ShloMosaic.ValueIdx

/-- The shapes of the statement, spelt once. -/
abbrev SX : Shape := ⟨3, ![4, 2048, 4096]⟩
abbrev SWq : Shape := ⟨2, ![32, 704512]⟩
abbrev SRow : Shape := ⟨2, ![1, 704512]⟩
abbrev SBias : Shape := ⟨1, ![11008]⟩
abbrev SWd : Shape := ⟨2, ![64, 704512]⟩
abbrev SW : Shape := ⟨2, ![11008, 4096]⟩
abbrev SX2 : Shape := ⟨2, ![8192, 4096]⟩
abbrev SBias2 : Shape := ⟨2, ![1, 11008]⟩
abbrev SO2 : Shape := ⟨2, ![8192, 11008]⟩
abbrev SO : Shape := ⟨3, ![4, 2048, 11008]⟩

/-- Bits 4..7 of a word, as the host spells them: shift right by four (arithmetically), keep four bits. -/
def hiNib (w : BitVec 32) : BitVec 32 := IntOp.andi (IntOp.shrsi .host w 4#32) 15#32
/-- Bits 0..3 of a word. -/
def loNib (w : BitVec 32) : BitVec 32 := IntOp.andi w 15#32

/-- The 4-bit code in row `r` of the unpacked array, column `g`: the high nibble of row `r` of the packed array for
    `r < 32`, the low nibble of row `r - 32` otherwise. -/
def code (wq : SWq.Idx → BitVec 32) (r : Fin 64) (g : Fin 704512) : BitVec 32 :=
  if h : r.val < 32 then hiNib (wq (ix2 ⟨r.val, h⟩ g)) else loNib (wq (ix2 ⟨r.val - 32, by omega⟩ g))

/-- One dequantised entry: the code as an integer, minus the column's zero point, times the column's scale. -/
def deqAt (wq : SWq.Idx → BitVec 32) (sc zr : SRow.Idx → EReal) (r : Fin 64) (g : Fin 704512) : EReal :=
  ((((code wq r g).toInt : ℝ) : EReal) - zr (ix2 0 g)) * sc (ix2 0 g)

/-- The dequantised array `[64, 704512]`. -/
def deq (wq : SWq.Idx → BitVec 32) (sc zr : SRow.Idx → EReal) : SWd.Idx → EReal :=
  fun i => deqAt wq sc zr ⟨(i 0).val, (i 0).isLt⟩ ⟨(i 1).val, (i 1).isLt⟩

/-- Where entry `(o, k)` of the `[11008, 4096]` reading sits in the `[64, 704512]` array: same row-major position. -/
def unflat (o : Fin 11008) (k : Fin 4096) : SWd.Idx :=
  ix2 ⟨(o.val * 4096 + k.val) / 704512, by have := o.isLt; have := k.isLt; omega⟩
      ⟨(o.val * 4096 + k.val) % 704512, Nat.mod_lt _ (by decide)⟩

/-- The weight matrix: the dequantised array read in row-major order as `[11008, 4096]`. -/
def weight (D : SWd.Idx → EReal) : SW.Idx → EReal :=
  fun j => D (unflat ⟨(j 0).val, (j 0).isLt⟩ ⟨(j 1).val, (j 1).isLt⟩)

/-- One entry of the product plus bias over flattened rows: `(∑ k, X[r, k] · W[o, k]) + B[0, o]`. -/
def mmAt (X : SX2.Idx → EReal) (W : SW.Idx → EReal) (B : SBias2.Idx → EReal) (r : Fin 8192) (o : Fin 11008) : EReal :=
  (∑ k : Fin 4096, X (ix2 r k) * W (ix2 o k)) + B (ix2 0 o)

/-- The product plus bias over flattened rows, `[8192, 11008]`. -/
def mm (X : SX2.Idx → EReal) (W : SW.Idx → EReal) (B : SBias2.Idx → EReal) : SO2.Idx → EReal :=
  fun j => mmAt X W B ⟨(j 0).val, (j 0).isLt⟩ ⟨(j 1).val, (j 1).isLt⟩

/-- One entry of the result: `(∑ k, x[b, s, k] · W[o, k]) + bias[o]`. -/
def outAt (x : SX.Idx → EReal) (W : SW.Idx → EReal) (bias : SBias.Idx → EReal) (b : Fin 4) (s : Fin 2048) (o : Fin 11008) : EReal :=
  (∑ k : Fin 4096, x (ix3 b s k) * W (ix2 o k)) + bias (ix1 o)

/-- The result `[4, 2048, 11008]` as a function of `x`, the weight matrix and the bias. -/
def out (x : SX.Idx → EReal) (W : SW.Idx → EReal) (bias : SBias.Idx → EReal) : SO.Idx → EReal :=
  fun i => outAt x W bias ⟨(i 0).val, (i 0).isLt⟩ ⟨(i 1).val, (i 1).isLt⟩ ⟨(i 2).val, (i 2).isLt⟩

/-- The whole statement's function of the five arguments. -/
def result (x : SX.Idx → EReal) (wq : SWq.Idx → BitVec 32) (sc zr : SRow.Idx → EReal) (bias : SBias.Idx → EReal) : SO.Idx → EReal :=
  out x (weight (deq wq sc zr)) bias

end Cert.Hqq

end
-- ==== Proof.RefValue.lean ====
/-
  The reference program, one operation at a time, computes the specification's function of the five arguments.

  Reading the last operation at an index `(b, s, o)` gives a sum over `k` of `x[b, s, k]` times the reshaped array at
  `(o, k)`, plus the bias at `o`. The reshaped array at `(o, k)` is the `[64, 704512]` array at the same row-major
  position, and that array at `(r, g)` is the integer code of row `r`, column `g`, minus the column's zero point, times
  the column's scale. The code is read from the concatenation of the high-nibble and low-nibble arrays along the rows:
  rows below 32 come from the first operand, the others from the second at `r - 32`.
-/
import proofs.«409429_j39943195853112_2_alg».proof.Proof.Spec
import proofs.«409429_j39943195853112_2_alg».proof.Proof.Gen.ReferenceIdeal.Read
import Idealize.ShloMosaic.Lib.Pipeline.Value
import Idealize.ShloMosaic.Lib.ValueIdx
import Idealize.ShloMosaic.PureOps.Ideal.Laws

noncomputable section

open scoped BigOperators

namespace Cert.Hqq.Ref

open Idealize.ShloMosaic Idealize.ShloMosaic.ValueIdx Cert.ReferenceIdeal Cert.ReferenceIdeal.Gen
  Cert.ReferenceIdeal.Read Cert.Hqq

/-! ## The index maps of the layout operations, on indices given by coordinates -/

/-- The zero-point broadcast reads row 0, same column. -/
theorem idx8_ix2 (r : Fin 64) (g : Fin 704512) : idx_main_v8 (ix2 r g) = ix2 (0 : Fin 1) g :=
  funext fun a => Fin.ext (by match a with | ⟨0, _⟩ => rfl | ⟨1, _⟩ => rfl)

/-- The scale broadcast reads row 0, same column. -/
theorem idx10_ix2 (r : Fin 64) (g : Fin 704512) : idx_main_v10 (ix2 r g) = ix2 (0 : Fin 1) g :=
  funext fun a => Fin.ext (by match a with | ⟨0, _⟩ => rfl | ⟨1, _⟩ => rfl)

/-- The reshape reads the same row-major position. -/
theorem idx12_ix2 (o : Fin 11008) (k : Fin 4096) : idx_main_v12 (ix2 o k) = unflat o k :=
  funext fun a => Fin.ext (by match a with | ⟨0, _⟩ => rfl | ⟨1, _⟩ => rfl)

/-- The contraction's left operand is read at `(b, s, k)`. -/
theorem lidx13_ix3 (b : Fin 4) (s : Fin 2048) (o : Fin 11008) (k : Fin 4096) :
    lidx_main_v13 (ix3 b s o) k = ix3 b s k :=
  funext fun a => Fin.ext (by match a with | ⟨0, _⟩ => rfl | ⟨1, _⟩ => rfl | ⟨2, _⟩ => rfl)

/-- The contraction's right operand is read at `(o, k)`. -/
theorem ridx13_ix3 (b : Fin 4) (s : Fin 2048) (o : Fin 11008) (k : Fin 4096) :
    ridx_main_v13 (ix3 b s o) k = ix2 o k :=
  funext fun a => Fin.ext (by match a with | ⟨0, _⟩ => rfl | ⟨1, _⟩ => rfl)

/-- The two bias broadcasts together read the bias at `o`. -/
theorem idx14_15_ix3 (b : Fin 4) (s : Fin 2048) (o : Fin 11008) :
    idx_main_v14 (idx_main_v15 (ix3 b s o)) = ix1 o :=
  funext fun a => Fin.ext (by match a with | ⟨0, _⟩ => rfl)

/-! ## The concatenation, read by rows -/

/-- A row below 32 of the concatenation is that row of the first operand. -/
theorem v6_lo (x1 : SWq.Idx → BitVec 32) (r : Fin 64) (g : Fin 704512) (h : r.val < 32) :
    val_main_v6 (F := Ideal) x1 (ix2 r g) = val_main_v3 (F := Ideal) x1 (ix2 ⟨r.val, h⟩ g) := by
  unfold val_main_v6
  exact concatenate_pair_apply_left (0 : Fin S64x704512.rank) _ _
    concatenates_S32x704512_S32x704512_S64x704512_d0 (ix2 r g) rfl (ix2 ⟨r.val, h⟩ g)
    (fun b => by match b with | ⟨0, _⟩ => rfl | ⟨1, _⟩ => rfl)

/-- A row from 32 on of the concatenation is row `r - 32` of the second operand. -/
theorem v6_hi (x1 : SWq.Idx → BitVec 32) (r : Fin 64) (g : Fin 704512) (h : ¬ r.val < 32) :
    val_main_v6 (F := Ideal) x1 (ix2 r g)
      = val_main_v5 (F := Ideal) x1 (ix2 ⟨r.val - 32, by have := r.isLt; omega⟩ g) := by
  unfold val_main_v6
  exact concatenate_pair_apply_right (0 : Fin S64x704512.rank) _ _
    concatenates_S32x704512_S32x704512_S64x704512_d0 (ix2 r g) rfl rfl
    (ix2 ⟨r.val - 32, by have := r.isLt; omega⟩ g)
    (fun b => by
      match b with
      | ⟨0, _⟩ => exact fun hne => absurd rfl hne
      | ⟨1, _⟩ => exact fun _ => rfl)
    (by show r.val - 32 + 32 = r.val; omega)

/-- The concatenation at `(r, g)` is the specification's code. -/
theorem v6_eq (x1 : SWq.Idx → BitVec 32) (r : Fin 64) (g : Fin 704512) :
    val_main_v6 (F := Ideal) x1 (ix2 r g) = code x1 r g := by
  unfold code
  split
  · next h =>
    rw [v6_lo x1 r g h, val_main_v3_apply, val_main_v1_apply, val_main_v0_apply, val_main_c_apply,
      val_main_v2_apply, val_main_c_0_apply]
    rfl
  · next h =>
    rw [v6_hi x1 r g h, val_main_v5_apply, val_main_v4_apply, val_main_c_1_apply]
    rfl

/-! ## The dequantised array and the weight matrix -/

/-- The product stage at `(r, g)` is the specification's dequantised entry. -/
theorem v11_eq (x1 : SWq.Idx → BitVec 32) (x2 x3 : SRow.Idx → EReal) (r : Fin 64) (g : Fin 704512) :
    val_main_v11 (F := Ideal) x1 x2 x3 (ix2 r g) = deqAt x1 x2 x3 r g := by
  rw [val_main_v11_apply, val_main_v9_apply, val_main_v7_apply, val_main_v8_apply, val_main_v10_apply,
    idx8_ix2, idx10_ix2, v6_eq]
  rfl

/-- The reshaped array at `(o, k)` is the specification's weight matrix there. -/
theorem v12_eq (x1 : SWq.Idx → BitVec 32) (x2 x3 : SRow.Idx → EReal) (o : Fin 11008) (k : Fin 4096) :
    val_main_v12 (F := Ideal) x1 x2 x3 (ix2 o k) = weight (deq x1 x2 x3) (ix2 o k) := by
  rw [val_main_v12_apply, idx12_ix2]
  exact v11_eq x1 x2 x3 _ _

/-! ## The whole program -/

/-- The reference program's result is the specification's function of the five arguments. -/
theorem ref_eq (x0 : Cert.Hqq.SX.Idx → EReal) (x1 : Cert.Hqq.SWq.Idx → BitVec 32)
    (x2 x3 : Cert.Hqq.SRow.Idx → EReal) (x4 : Cert.Hqq.SBias.Idx → EReal) :
    Cert.ReferenceIdeal.Read.val_main_v16 (F := Ideal) x0 x1 x2 x3 x4 = Cert.Hqq.result x0 x1 x2 x3 x4 := by
  funext i
  obtain ⟨b, s, o, rfl⟩ : ∃ (b : Fin 4) (s : Fin 2048) (o : Fin 11008), i = ix3 b s o :=
    ⟨i 0, i 1, i 2, eq_ix3 i⟩
  rw [val_main_v16_apply, val_main_v13_apply, val_main_v15_apply, val_main_v14_apply, idx14_15_ix3]
  show (∑ k : Fin 4096, x0 (lidx_main_v13 (ix3 b s o) k)
      * val_main_v12 (F := Ideal) x1 x2 x3 (ridx_main_v13 (ix3 b s o) k)) + x4 (ix1 o)
    = (∑ k : Fin 4096, x0 (ix3 b s k) * weight (deq x1 x2 x3) (ix2 o k)) + x4 (ix1 o)
  congr 1
  refine Finset.sum_congr rfl fun k _ => ?_
  rw [lidx13_ix3, ridx13_ix3, v12_eq]

end Cert.Hqq.Ref

end
-- ==== Proof.DequantRegion.lean ====
/-
  What the first kernel leaves in its output array. Each grid point `t` (of 64) unpacks a `[32, 11008]` block of packed words —
  columns `t·11008 … t·11008 + 11007` — into a `[64, 11008]` block: rows 0..31 from the high nibbles, rows 32..63 from the low
  nibbles, each code minus the column's zero point times the column's scale. The kernel first masks every word to its low
  byte; bits 4..7 and bits 0..3 of a word do not depend on that mask, so the nibbles are those of the word itself. The 64
  blocks tile the `[64, 704512]` array, which therefore ends holding `Cert.Hqq.deq` of the three argument arrays.
-/
import proofs.«409429_j39943195853112_2_alg».proof.Proof.Spec
import proofs.«409429_j39943195853112_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.Hqq.Dequant

open Idealize.ShloMosaic Idealize.ShloMosaic.TcCoe Idealize.ShloMosaic.ValueIdx Idealize.SL.Sem
open Idealize.ShloMosaic.Pipeline (Dat)
open Cert.KernelIdeal Cert.KernelIdeal.Gen

/-! ## The nibbles of a word masked to its low byte -/

/-- An arithmetic shift by the literal amount four is the bit-vector shift, on every unit. -/
theorem shr4 (u : ArithUnit) (w : BitVec 32) : IntOp.shrsi u w 4#32 = w.sshiftRight 4 := by
  unfold IntOp.shrsi
  rw [if_pos (by decide)]
  rfl

/-- Bits 4..7 of `w &&& 0xFF` are bits 4..7 of `w`: the shift distributes over the conjunction, and `0xFF` shifted by four,
    conjoined with `0xF`, is `0xF`. -/
theorem hi_masked (w : BitVec 32) : IntOp.andi (IntOp.shrsi .vector (IntOp.andi w 255#32) 4#32) 15#32 = hiNib w := by
  unfold hiNib
  rw [shr4, shr4]
  unfold IntOp.andi
  rw [BitVec.sshiftRight_and_distrib, BitVec.and_assoc]
  congr 1

/-- Bits 0..3 of `w &&& 0xFF` are bits 0..3 of `w`: `0xFF &&& 0xF = 0xF`. -/
theorem lo_masked (w : BitVec 32) : IntOp.andi (IntOp.andi w 255#32) 15#32 = loNib w := by
  unfold loNib IntOp.andi
  rw [BitVec.and_assoc]
  congr 1

/-! ## The two stores' values at an index -/

/-- The value stored to rows 0..31 of the block, at `(p, q)`: the high nibble of the loaded word, minus the zero point of
    column `q`, times its scale. -/
theorem pay_hi (v0 : Vec Ideal S32x11008 .i32) (v9 v10 : Vec Ideal S1x11008 .f32) (p : Fin 32) (q : Fin 11008) :
    k0_pay2 (F := Ideal) v0 v9 v10 (ix2 p q)
      = ((((hiNib (v0 (ix2 p q))).toInt : ℝ) : EReal) - v10 (ix2 (0 : Fin 1) q)) * v9 (ix2 (0 : Fin 1) q) := by
  unfold k0_pay2 k0_pay1
  rw [truncf_apply, mulf_apply, subf_apply, sitofp_apply, broadcastTo_1b_ab_apply, broadcastTo_1b_ab_apply, ← hi_masked]
  rfl

/-- The value stored to rows 32..63 of the block, at `(p, q)`: the same with the low nibble. -/
theorem pay_lo (v0 : Vec Ideal S32x11008 .i32) (v9 v10 : Vec Ideal S1x11008 .f32) (p : Fin 32) (q : Fin 11008) :
    k0_pay3 (F := Ideal) v0 v9 v10 (ix2 p q)
      = ((((loNib (v0 (ix2 p q))).toInt : ℝ) : EReal) - v10 (ix2 (0 : Fin 1) q)) * v9 (ix2 (0 : Fin 1) q) := by
  unfold k0_pay3 k0_pay1
  rw [truncf_apply, mulf_apply, subf_apply, sitofp_apply, broadcastTo_1b_ab_apply, broadcastTo_1b_ab_apply, ← lo_masked]
  rfl

/-! ## The block the body leaves -/

/-- One entry of the `[64, 11008]` block as a function of the three loaded blocks (`x1` the scales, `x2` the zero points):
    the specification's entry with the block's own column numbering. -/
def blockAt (x0 : Vec Ideal S32x11008 .i32) (x1 x2 : Vec Ideal S1x11008 .f32) (r : Fin 64) (g : Fin 11008) : EReal :=
  if h : r.val < 32
    then ((((hiNib (x0 (ix2 (⟨r.val, h⟩ : Fin 32) g))).toInt : ℝ) : EReal) - x2 (ix2 (0 : Fin 1) g)) * x1 (ix2 (0 : Fin 1) g)
    else ((((loNib (x0 (ix2 (⟨r.val - 32, by have := r.isLt; omega⟩ : Fin 32) g))).toInt : ℝ) : EReal) - x2 (ix2 (0 : Fin 1) g)) * x1 (ix2 (0 : Fin 1) g)

/-- The block. -/
def blockFn (x0 : Vec Ideal S32x11008 .i32) (x1 x2 : Vec Ideal S1x11008 .f32) : S64x11008.Idx → EReal :=
  fun y => blockAt x0 x1 x2 ⟨(y 0).val, (y 0).isLt⟩ ⟨(y 1).val, (y 1).isLt⟩

/-- An entry of the lower half, row `32 + p`. -/
theorem blockAt_lo (x0 : Vec Ideal S32x11008 .i32) (x1 x2 : Vec Ideal S1x11008 .f32) (r : Fin 64) (g : Fin 11008) (p : Fin 32) (q : Fin 11008)
    (h0 : r.val = 32 + p.val) (h1 : g.val = q.val) :
    blockAt x0 x1 x2 r g = ((((loNib (x0 (ix2 p q))).toInt : ℝ) : EReal) - x2 (ix2 (0 : Fin 1) q)) * x1 (ix2 (0 : Fin 1) q) := by
  obtain rfl : g = q := Fin.ext h1
  unfold blockAt
  rw [dif_neg (by omega)]
  have ep : ∀ hlt, (⟨r.val - 32, hlt⟩ : Fin 32) = p := fun _ => Fin.ext (by show r.val - 32 = p.val; omega)
  rw [ep]

/-- An entry of the upper half, row `p < 32`. -/
theorem blockAt_hi (x0 : Vec Ideal S32x11008 .i32) (x1 x2 : Vec Ideal S1x11008 .f32) (r : Fin 64) (g : Fin 11008) (p : Fin 32) (q : Fin 11008)
    (h0 : r.val = p.val) (h1 : g.val = q.val) :
    blockAt x0 x1 x2 r g = ((((hiNib (x0 (ix2 p q))).toInt : ℝ) : EReal) - x2 (ix2 (0 : Fin 1) q)) * x1 (ix2 (0 : Fin 1) q) := by
  obtain rfl : g = q := Fin.ext h1
  unfold blockAt
  rw [dif_pos (by have := p.isLt; omega)]
  have ep : ∀ hlt, (⟨r.val, hlt⟩ : Fin 32) = p := fun _ => Fin.ext h0
  rw [ep]

theorem hz : (![0, 0] : Fin 2 → Nat) = fun _ => 0 := funext fun a => by fin_cases a <;> rfl

/-- The two stores — rows 32..63 last, rows 0..31 first — are the two halves of `blockFn`, and together cover the block. -/
theorem out0_3_eq (x0 : Vec Ideal S32x11008 .i32) (x1 x2 : Vec Ideal S1x11008 .f32) :
    out0_3 (F := Ideal) x0 x1 x2 = blockFn x0 x1 x2 := by
  funext y
  unfold out0_3
  refine View.canon_apply_of_pieces (Val := Elt Ideal) (e := .bf16) (blockFn x0 x1 x2) _ ?_ y (cover0_3 _ _ y)
  intro pc hpc x
  simp only [List.mem_cons, List.mem_singleton, List.not_mem_nil, or_false] at hpc
  rcases hpc with rfl | rfl
  · -- rows 32..63
    obtain ⟨p, q, rfl⟩ : ∃ (p : Fin 32) (q : Fin 11008), x = ix2 p q := ⟨x 0, x 1, eq_ix2 x⟩
    show k0_pay3 (F := Ideal) (View.ld x0 r0_0) (View.ld x1 r0_1) (View.ld x2 r0_1) (ix2 p q) = _
    simp only [View.ld_unit_zero (S := S32x11008) hz, View.ld_unit_zero (S := S1x11008) hz]
    rw [pay_lo]
    exact (blockAt_lo x0 x1 x2 _ _ p q (by show 32 + 1 * p.val = 32 + p.val; omega) (by show 0 + 1 * q.val = q.val; omega)).symm
  · obtain ⟨p, q, rfl⟩ : ∃ (p : Fin 32) (q : Fin 11008), x = ix2 p q := ⟨x 0, x 1, eq_ix2 x⟩
    show k0_pay2 (F := Ideal) (View.ld x0 r0_0) (View.ld x1 r0_1) (View.ld x2 r0_1) (ix2 p q) = _
    simp only [View.ld_unit_zero (S := S32x11008) hz, View.ld_unit_zero (S := S1x11008) hz]
    rw [pay_hi]
    exact (blockAt_hi x0 x1 x2 _ _ p q (by show 0 + 1 * p.val = p.val; omega) (by show 0 + 1 * q.val = q.val; omega)).symm

/-! ## The specification's entry by halves -/

/-- The dequantised array at an index given by coordinates. -/
theorem deq_apply (wq : SWq.Idx → BitVec 32) (sc zr : SRow.Idx → EReal) (i : SWd.Idx) (r : Fin 64) (G : Fin 704512)
    (h0 : (i 0).val = r.val) (h1 : (i 1).val = G.val) : deq wq sc zr i = deqAt wq sc zr r G := by
  unfold deq
  have e0 : (⟨(i 0).val, (i 0).isLt⟩ : Fin 64) = r := Fin.ext h0
  have e1 : (⟨(i 1).val, (i 1).isLt⟩ : Fin 704512) = G := Fin.ext h1
  exact congrArg₂ (deqAt wq sc zr) e0 e1

/-- An entry of rows 0..31: the high nibble. -/
theorem deqAt_hi (wq : SWq.Idx → BitVec 32) (sc zr : SRow.Idx → EReal) (r : Fin 64) (G : Fin 704512) (p : Fin 32) (h0 : r.val = p.val) :
    deqAt wq sc zr r G = ((((hiNib (wq (ix2 p G))).toInt : ℝ) : EReal) - zr (ix2 (0 : Fin 1) G)) * sc (ix2 (0 : Fin 1) G) := by
  unfold deqAt code
  rw [dif_pos (by have := p.isLt; omega)]
  have ep : ∀ hlt, (⟨r.val, hlt⟩ : Fin 32) = p := fun _ => Fin.ext h0
  rw [ep]

/-- An entry of rows 32..63: the low nibble of row `r - 32`. -/
theorem deqAt_lo (wq : SWq.Idx → BitVec 32) (sc zr : SRow.Idx → EReal) (r : Fin 64) (G : Fin 704512) (p : Fin 32) (h0 : r.val = 32 + p.val) :
    deqAt wq sc zr r G = ((((loNib (wq (ix2 p G))).toInt : ℝ) : EReal) - zr (ix2 (0 : Fin 1) G)) * sc (ix2 (0 : Fin 1) G) := by
  unfold deqAt code
  rw [dif_neg (by omega)]
  have ep : ∀ hlt, (⟨r.val - 32, hlt⟩ : Fin 32) = p := fun _ => Fin.ext (by show r.val - 32 = p.val; omega)
  rw [ep]

/-! ## From the blocks to the array -/

/-- The printed index maps over the grid: at point `t` every window's block index is `(0, t)`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

variable (V : (c : Dev nD) → (b : Ref sig .tc) → Buf (Elt Ideal) ((c : Thread nD τ).loc b))

/-- The packed words' block at point `t`, entry `(r, g)`: the array's entry `(r, t·11008 + g)`. -/
theorem read_wq (c : Dev nD) (t : Fin cfg0.N) (r : Fin 32) (g : Fin 11008) (G : Fin 704512) (hG : G.val = t.val * 11008 + g.val) :
    iblk0 V c 0 t (ix2 r g) = V c main_arg1 (ix2 r G) := by
  obtain ⟨a0, a1, -⟩ := idx_facts t
  show V c main_arg1 (((cfg0.win 0).blk t).view.emb (ix2 r g)) = V c main_arg1 (ix2 r G)
  refine congrArg _ (funext fun a => Fin.ext ?_)
  match a with
  | ⟨0, _⟩ => show win0_0.index t (0 : Fin 2) * 32 + 1 * r.val = r.val; omega
  | ⟨1, _⟩ => show win0_0.index t (1 : Fin 2) * 11008 + 1 * g.val = G.val; omega

/-- The scales' block at point `t`, entry `(0, g)`: the array's entry `(0, t·11008 + g)`. -/
theorem read_sc (c : Dev nD) (t : Fin cfg0.N) (g : Fin 11008) (G : Fin 704512) (hG : G.val = t.val * 11008 + g.val) :
    iblk0 V c 1 t (ix2 (0 : Fin 1) g) = V c main_arg2 (ix2 (0 : Fin 1) G) := by
  obtain ⟨-, -, b0, b1, -⟩ := idx_facts t
  show V c main_arg2 (((cfg0.win 1).blk t).view.emb (ix2 (0 : Fin 1) g)) = V c main_arg2 (ix2 (0 : Fin 1) G)
  refine congrArg _ (funext fun a => Fin.ext ?_)
  match a with
  | ⟨0, _⟩ => show win0_1.index t (0 : Fin 2) * 1 + 1 * 0 = 0; omega
  | ⟨1, _⟩ => show win0_1.index t (1 : Fin 2) * 11008 + 1 * g.val = G.val; omega

/-- The zero points' block at point `t`, entry `(0, g)`: the array's entry `(0, t·11008 + g)`. -/
theorem read_zr (c : Dev nD) (t : Fin cfg0.N) (g : Fin 11008) (G : Fin 704512) (hG : G.val = t.val * 11008 + g.val) :
    iblk0 V c 2 t (ix2 (0 : Fin 1) g) = V c main_arg3 (ix2 (0 : Fin 1) G) := by
  obtain ⟨-, -, -, -, c0, c1, -⟩ := idx_facts t
  show V c main_arg3 (((cfg0.win 2).blk t).view.emb (ix2 (0 : Fin 1) g)) = V c main_arg3 (ix2 (0 : Fin 1) G)
  refine congrArg _ (funext fun a => Fin.ext ?_)
  match a with
  | ⟨0, _⟩ => show win0_2.index t (0 : Fin 2) * 1 + 1 * 0 = 0; omega
  | ⟨1, _⟩ => show win0_2.index t (1 : Fin 2) * 11008 + 1 * g.val = G.val; omega

/-- What point `t` writes back is block `t` of the dequantised array of the three arrays the region reads. -/
theorem flushed_eq (c : Dev nD) (t : Fin cfg0.N) :
    (dat0 (F := Ideal) V c).flushed 3 t
      = ((cfg0.win 3).blk t).view.read (Elt Ideal) (deq (V c main_arg1) (V c main_arg2) (V c main_arg3)) := by
  show (cfg0.win 3).cut (grid0.coords t) ((dat0 V c).after 3 t) = _
  rw [after0_3]
  obtain ⟨-, -, -, -, -, -, d0, d1⟩ := idx_facts t
  have ht : t.val < 64 := t.isLt
  funext j
  show out0_3 (F := Ideal) (iblk0 V c 0 t) (iblk0 V c 1 t) (iblk0 V c 2 t) j
    = deq (V c main_arg1) (V c main_arg2) (V c main_arg3) (((cfg0.win 3).blk t).view.emb j)
  refine (congrFun (out0_3_eq (iblk0 V c 0 t) (iblk0 V c 1 t) (iblk0 V c 2 t)) j).trans ?_
  have hj0 : (j 0).val < 64 := (j 0).isLt
  have hj1 : (j 1).val < 11008 := (j 1).isLt
  have hG : t.val * 11008 + (j 1).val < 704512 := by omega
  have e0 : ((((cfg0.win 3).blk t).view.emb j) 0).val = (j 0).val := by
    show win0_3.index t (0 : Fin 2) * 64 + 1 * (j 0).val = (j 0).val; omega
  have e1 : ((((cfg0.win 3).blk t).view.emb j) 1).val = t.val * 11008 + (j 1).val := by
    show win0_3.index t (1 : Fin 2) * 11008 + 1 * (j 1).val = t.val * 11008 + (j 1).val; omega
  rw [deq_apply _ _ _ _ ⟨(j 0).val, hj0⟩ ⟨t.val * 11008 + (j 1).val, hG⟩ e0 e1]
  show blockAt (iblk0 V c 0 t) (iblk0 V c 1 t) (iblk0 V c 2 t) ⟨(j 0).val, hj0⟩ ⟨(j 1).val, hj1⟩ = _
  by_cases h : (j 0).val < 32
  · refine (blockAt_hi (iblk0 V c 0 t) (iblk0 V c 1 t) (iblk0 V c 2 t) ⟨(j 0).val, hj0⟩ ⟨(j 1).val, hj1⟩ ⟨(j 0).val, h⟩ ⟨(j 1).val, hj1⟩ rfl rfl).trans ?_
    rw [deqAt_hi (V c main_arg1) (V c main_arg2) (V c main_arg3) ⟨(j 0).val, hj0⟩ ⟨t.val * 11008 + (j 1).val, hG⟩ ⟨(j 0).val, h⟩ rfl,
      read_wq V c t ⟨(j 0).val, h⟩ ⟨(j 1).val, hj1⟩ ⟨t.val * 11008 + (j 1).val, hG⟩ rfl,
      read_sc V c t ⟨(j 1).val, hj1⟩ ⟨t.val * 11008 + (j 1).val, hG⟩ rfl,
      read_zr V c t ⟨(j 1).val, hj1⟩ ⟨t.val * 11008 + (j 1).val, hG⟩ rfl]
  · have h32 : (j 0).val - 32 < 32 := by omega
    have hrow : (j 0).val = 32 + ((j 0).val - 32) := by omega
    refine (blockAt_lo (iblk0 V c 0 t) (iblk0 V c 1 t) (iblk0 V c 2 t) ⟨(j 0).val, hj0⟩ ⟨(j 1).val, hj1⟩ ⟨(j 0).val - 32, h32⟩ ⟨(j 1).val, hj1⟩ hrow rfl).trans ?_
    rw [deqAt_lo (V c main_arg1) (V c main_arg2) (V c main_arg3) ⟨(j 0).val, hj0⟩ ⟨t.val * 11008 + (j 1).val, hG⟩ ⟨(j 0).val - 32, h32⟩ hrow,
      read_wq V c t ⟨(j 0).val - 32, h32⟩ ⟨(j 1).val, hj1⟩ ⟨t.val * 11008 + (j 1).val, hG⟩ rfl,
      read_sc V c t ⟨(j 1).val, hj1⟩ ⟨t.val * 11008 + (j 1).val, hG⟩ rfl,
      read_zr V c t ⟨(j 1).val, hj1⟩ ⟨t.val * 11008 + (j 1).val, hG⟩ rfl]

/-- An index of the array is in point `t`'s block iff each coordinate is in the block's range on its axis. -/
theorem mem_blk (t : Fin cfg0.N) (i : S64x704512.Idx) :
    i ∈ ((cfg0.win 3).blk t).view.set ↔ ∀ a : Fin 2, win0_3.index t a * S64x11008.size a ≤ (i a).val ∧ (i a).val < win0_3.index t a * S64x11008.size a + S64x11008.size a := by
  show i ∈ ((View.whole main_v0).slice (win0_3.rect t)).set ↔ _
  rw [View.set_slice_whole, Rect.mem_set_unit]
  exact Iff.rfl

/-- Every index of the `[64, 704512]` array is in the block of the point `t = column / 11008`. -/
theorem cover (i : S64x704512.Idx) : ∃ t : Fin cfg0.N, (cfg0.win 3).flush t = true ∧ i ∈ ((cfg0.win 3).blk t).view.set := by
  have hi0 : (i 0).val < 64 := (i 0).isLt
  have hi1 : (i 1).val < 704512 := (i 1).isLt
  let t : Fin cfg0.N := ⟨(i 1).val / 11008, by show (i 1).val / 11008 < 64; omega⟩
  obtain ⟨-, -, -, -, -, -, d0, d1⟩ := idx_facts t
  have d1' : win0_3.index t (1 : Fin 2) = (i 1).val / 11008 := d1
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 11008 ≤ (i 1).val ∧ (i 1).val < win0_3.index t (1 : Fin 2) * 11008 + 11008; omega

/-- The first region's output array after the region: the dequantised array of the three arrays it reads. -/
theorem region0_final (c : Dev nD) :
    (dat0 (F := Ideal) V c).arrAt 3 cfg0.N = deq (V c main_arg1) (V c main_arg2) (V c main_arg3) :=
  (dat0 (F := Ideal) V c).arrAt_eq_of_cover 3 _ (fun t _ => flushed_eq V c t) cover

end Cert.Hqq.Dequant

end
-- ==== Proof.MatmulRegion.lean ====
/-
  What the second region (the tiled matrix product) leaves in its output array, as one function of the three arrays it
  reads: every entry `(r, o)` of the `[8192, 11008]` output is `(∑ k, X[r, k] · W[o, k]) + B[0, o]`.

  The grid is `[8, 43]`; the point `(i, j)` multiplies rows `1024 i .. 1024 i + 1023` of `X` with rows
  `256 j .. 256 j + 255` of `W` (contracting the shared axis of length 4096 into a zero accumulator), adds columns
  `256 j .. 256 j + 255` of the bias row, and writes the `[1024, 256]` block at `(i, j)`. The blocks tile the output.
-/
import proofs.«409429_j39943195853112_2_alg».proof.Proof.Spec
import proofs.«409429_j39943195853112_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Hqq.Matmul

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The contraction's operand indices: at output index `(p, q)` and contraction index `k` the left operand is read
    at `(p, k)` and the right at `(q, k)` -/

theorem lhs_mm_0 (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
theorem lhs_mm_1 (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
theorem rhs_mm_0 (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
theorem rhs_mm_1 (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- The product of two blocks into a zero accumulator, at an index: the sum over the shared axis. -/
theorem matmul_block_apply (y0 : FVec Ideal S1024x4096 .bf16) (y1 : FVec Ideal S256x4096 .bf16) (p : Fin 1024) (q : Fin 256) :
    matmul (F := Ideal) dot_S1024x4096_S256x4096_S1024x256_1_1_0_0_n_n none y0 y1 (constant (F := Ideal) S1024x256 .f32 0x00000000#32) (ix2 p q)
      = ∑ k : Fin 4096, y0 (ix2 p k) * y1 (ix2 q k) := by
  simp only [matmul]
  rw [Ideal.matmul_constant_zero_apply, ← Equiv.sum_comp (ValueIdx.contrEquiv1 dot_S1024x4096_S256x4096_S1024x256_1_1_0_0_n_n 4096 rfl rfl).symm]
  refine Finset.sum_congr rfl fun k _ => ?_
  have hk := ValueIdx.contrEquiv1_symm_val dot_S1024x4096_S256x4096_S1024x256_1_1_0_0_n_n 4096 rfl rfl k
  have el : dot_S1024x4096_S256x4096_S1024x256_1_1_0_0_n_n.lhsIdx (ix2 p q) ((ValueIdx.contrEquiv1 dot_S1024x4096_S256x4096_S1024x256_1_1_0_0_n_n 4096 rfl rfl).symm k) = ix2 p k := funext fun a => Fin.ext (by
    match a with
    | ⟨0, _⟩ => exact lhs_mm_0 _ _
    | ⟨1, _⟩ => exact (lhs_mm_1 _ _).trans hk)
  have er : dot_S1024x4096_S256x4096_S1024x256_1_1_0_0_n_n.rhsIdx (ix2 p q) ((ValueIdx.contrEquiv1 dot_S1024x4096_S256x4096_S1024x256_1_1_0_0_n_n 4096 rfl rfl).symm k) = ix2 q k := funext fun a => Fin.ext (by
    match a with
    | ⟨0, _⟩ => exact rhs_mm_0 _ _
    | ⟨1, _⟩ => exact (rhs_mm_1 _ _).trans hk)
  rw [el, er]

/-- The body's payload at an index: the block product plus the bias row's entry on the column. -/
theorem pay_apply (x0 : Vec Ideal S1024x4096 .bf16) (x1 : Vec Ideal S256x4096 .bf16) (x2 : Vec Ideal S1x256 .f32) (p : Fin 1024) (q : Fin 256) :
    k1_pay1 (F := Ideal) x0 x1 x2 (ix2 p q) = (∑ k : Fin 4096, x0 (ix2 p k) * x1 (ix2 q k)) + x2 (ix2 0 q) := by
  unfold k1_pay1
  rw [addf_apply, shapeCast_self, shapeCast_self, shapeCast_self]
  refine congrArg₂ (· + ·) (matmul_block_apply x0 x1 p q) ?_
  exact broadcastTo_apply x2 broadcasts_S1x256_S1024x256 (ix2 p q) (ix2 0 q) (fun a => by
    match a with
    | ⟨0, _⟩ => rfl
    | ⟨1, _⟩ => rfl)

/-! ## From the blocks to the array -/

theorem hz : (![0, 0] : Fin 2 → Nat) = fun _ => 0 := funext fun a => by fin_cases a <;> rfl

/-- One entry from blocks that are restrictions of the arrays: if row `p` of the left block is row `r` of `X`, row `q` of the
    right block is row `o` of `W`, and entry `q` of the bias block is entry `o` of `B`, the payload's entry `(p, q)` is
    entry `(r, o)` of the product plus bias. -/
theorem entry_of_blocks (X : SX2.Idx → EReal) (W : SW.Idx → EReal) (B : SBias2.Idx → EReal)
    (b0 : S1024x4096.Idx → EReal) (b1 : S256x4096.Idx → EReal) (b2 : S1x256.Idx → EReal)
    (r : Fin 8192) (o : Fin 11008) (p : Fin 1024) (q : Fin 256)
    (h0 : ∀ k : Fin 4096, b0 (ix2 p k) = X (ix2 r k)) (h1 : ∀ k : Fin 4096, b1 (ix2 q k) = W (ix2 o k))
    (h2 : b2 (ix2 0 q) = B (ix2 0 o)) :
    (∑ k : Fin 4096, b0 (ix2 p k) * b1 (ix2 q k)) + b2 (ix2 0 q) = mmAt X W B r o := by
  unfold mmAt
  rw [h2]
  exact congrArg (· + B (ix2 0 o)) (Finset.sum_congr rfl fun k _ => by rw [h0 k, h1 k])

/-- The printed index maps, decided over the grid: the left operand's block moves with the output's row block, the right
    operand's and the bias's with the output's column block, and point `t` is the output block `(t / 43, t % 43)`. -/
theorem idx_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) = t.val / 43
    ∧ win1_3.index t (1 : Fin 2) = t.val % 43 :=
  (by decide +kernel : ∀ t : Fin grid1.N, _)

variable (V : (c : Dev nD) → (b : Ref sig .tc) → Buf (Elt Ideal) ((c : Thread nD τ).loc b))

/-- WHAT POINT `t` WRITES BACK is block `t` of the product plus bias of the arrays as the region finds them. -/
theorem flushed_eq (c : Dev nD) (t : Fin cfg1.N) :
    (dat1 (F := Ideal) V c).flushed 3 t = ((cfg1.win 3).blk t).view.read (Elt Ideal) (mm (V c main_v3) (V c main_v1) (V c main_v4)) := by
  show (cfg1.win 3).cut (grid1.coords t) ((dat1 (F := Ideal) V c).after 3 t) = _
  rw [after1_3]
  unfold out1_3
  rw [View.canon_unit_zero hz]
  simp only [View.ld_unit_zero (S := S1024x4096) hz, View.ld_unit_zero (S := S256x4096) hz, View.ld_unit_zero (S := S1x256) hz]
  obtain ⟨e0, e1, e2, e3, e4, e5, e6, e7⟩ := idx_facts t
  funext j
  obtain ⟨p, q, rfl⟩ : ∃ (p : Fin 1024) (q : Fin 256), j = ix2 p q := ⟨j 0, j 1, eq_ix2 j⟩
  refine (pay_apply (iblk1 V c 0 t) (iblk1 V c 1 t) (iblk1 V c 2 t) p q).trans ?_
  show _ = mmAt (V c main_v3) (V c main_v1) (V c main_v4)
    ⟨(((cfg1.win 3).blk t).view.emb (ix2 p q) 0).val, (((cfg1.win 3).blk t).view.emb (ix2 p q) 0).isLt⟩
    ⟨(((cfg1.win 3).blk t).view.emb (ix2 p q) 1).val, (((cfg1.win 3).blk t).view.emb (ix2 p q) 1).isLt⟩
  refine entry_of_blocks (V c main_v3) (V c main_v1) (V c main_v4) (iblk1 V c 0 t) (iblk1 V c 1 t) (iblk1 V c 2 t) _ _ p q ?_ ?_ ?_
  · intro k
    show V c main_v3 (((cfg1.win 0).blk t).view.emb (ix2 p k)) = V c main_v3 _
    refine congrArg (V c main_v3) (funext fun a => Fin.ext ?_)
    match a with
    | ⟨0, _⟩ => show win1_0.index t (0 : Fin 2) * 1024 + 1 * p.val = win1_3.index t (0 : Fin 2) * 1024 + 1 * p.val; omega
    | ⟨1, _⟩ => show win1_0.index t (1 : Fin 2) * 4096 + 1 * k.val = k.val; omega
  · intro k
    show V c main_v1 (((cfg1.win 1).blk t).view.emb (ix2 q k)) = V c main_v1 _
    refine congrArg (V c main_v1) (funext fun a => Fin.ext ?_)
    match a with
    | ⟨0, _⟩ => show win1_1.index t (0 : Fin 2) * 256 + 1 * q.val = win1_3.index t (1 : Fin 2) * 256 + 1 * q.val; omega
    | ⟨1, _⟩ => show win1_1.index t (1 : Fin 2) * 4096 + 1 * k.val = k.val; omega
  · show V c main_v4 (((cfg1.win 2).blk t).view.emb (ix2 0 q)) = V c main_v4 _
    refine congrArg (V c main_v4) (funext fun a => Fin.ext ?_)
    match a with
    | ⟨0, _⟩ => show win1_2.index t (0 : Fin 2) * 1 + 1 * 0 = 0; omega
    | ⟨1, _⟩ => show win1_2.index t (1 : Fin 2) * 256 + 1 * q.val = win1_3.index t (1 : Fin 2) * 256 + 1 * q.val; omega

/-- An index of the output array is in point `t`'s block iff each coordinate is in the block's range on its axis. -/
theorem mem_blk (t : Fin cfg1.N) (i : S8192x11008.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v5).slice (win1_3.rect t)).set ↔ _
  rw [View.set_slice_whole, Rect.mem_set_unit]
  exact Iff.rfl

/-- The blocks tile the output: entry `(r, o)` is in the block of the point `(r / 1024) · 43 + o / 256`. -/
theorem cover (i : S8192x11008.Idx) :
    ∃ t : Fin cfg1.N, (cfg1.win 3).flush t = true ∧ i ∈ ((cfg1.win 3).blk t).view.set := by
  have hi0 : (i 0).val < 8192 := (i 0).isLt
  have hi1 : (i 1).val < 11008 := (i 1).isLt
  have ht : (i 0).val / 1024 * 43 + (i 1).val / 256 < 344 := by omega
  refine ⟨⟨(i 0).val / 1024 * 43 + (i 1).val / 256, ht⟩, flush1_3 _, ?_⟩
  rw [mem_blk]
  obtain ⟨-, -, -, -, -, -, e6, e7⟩ := idx_facts ⟨(i 0).val / 1024 * 43 + (i 1).val / 256, ht⟩
  have f6 : win1_3.index ⟨(i 0).val / 1024 * 43 + (i 1).val / 256, ht⟩ (0 : Fin 2) = ((i 0).val / 1024 * 43 + (i 1).val / 256) / 43 := e6
  have f7 : win1_3.index ⟨(i 0).val / 1024 * 43 + (i 1).val / 256, ht⟩ (1 : Fin 2) = ((i 0).val / 1024 * 43 + (i 1).val / 256) % 43 := e7
  intro a
  match a with
  | ⟨0, _⟩ => show win1_3.index _ (0 : Fin 2) * 1024 ≤ (i 0).val ∧ (i 0).val < win1_3.index _ (0 : Fin 2) * 1024 + 1024; omega
  | ⟨1, _⟩ => show win1_3.index _ (1 : Fin 2) * 256 ≤ (i 1).val ∧ (i 1).val < win1_3.index _ (1 : Fin 2) * 256 + 256; omega

/-- THE OUTPUT ARRAY after the region: the product plus bias of the three arrays it reads, as the region finds them. -/
theorem region1_final (c : Dev nD) :
    (dat1 (F := Ideal) V c).arrAt 3 cfg1.N = Cert.Hqq.mm (V c main_v3) (V c main_v1) (V c main_v4) :=
  (dat1 (F := Ideal) V c).arrAt_eq_of_cover 3 (mm (V c main_v3) (V c main_v1) (V c main_v4)) (fun t _ => flushed_eq V c t) cover

end Cert.Hqq.Matmul

end
-- ==== Proof.KernelValue.lean ====
/-
  The kernel program's result as a function of its five arguments. Between and after its two regions the program only
  re-reads arrays in another shape (and changes a float format, which is the identity on extended reals): the unpacked
  `[64, 704512]` array is read as the `[11008, 4096]` weight matrix, `x` as `[8192, 4096]` (row `b·2048 + s`), the bias as one
  row, and the product `[8192, 11008]` as `[4, 2048, 11008]`. Composing these readings with what the two regions leave
  gives `out[b, s, o] = (∑ k, x[b, s, k] · W[o, k]) + bias[o]` with `W` the dequantised weights.
-/
import proofs.«409429_j39943195853112_2_alg».proof.Proof.Spec
import proofs.«409429_j39943195853112_2_alg».proof.Proof.KernelRun
import proofs.«409429_j39943195853112_2_alg».proof.Proof.DequantRegion
import proofs.«409429_j39943195853112_2_alg».proof.Proof.MatmulRegion
import Idealize.ShloMosaic.Lib.StableHlo.Run
import Idealize.ShloMosaic.Lib.Pipeline.Value
import Idealize.ShloMosaic.Lib.ValueIdx

set_option maxRecDepth 16384

noncomputable section

open scoped BigOperators

namespace Cert.Hqq.Kernel

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-! ## What the host operations between the regions read -/

/-- The weight operand of the second region is the first region's output array, reshaped. -/
theorem V2_v1 (c : Dev nD) :
    V2 m ρ c main_v1 = shapeCast S11008x4096 (W1 m ρ c (Proc.devRef .tc main_v0)) shapeCasts_S64x704512_S11008x4096 := by
  show StableHlo.after hostOps1 (W1 m ρ c) (Proc.devRef .tc main_v1) = _
  after_results
  rfl

/-- The left operand of the second region is `x` read as `[8192, 4096]` (the change of float format is the identity). -/
theorem V2_v3 (c : Dev nD) :
    V2 m ρ c main_v3 = shapeCast S8192x4096 (m ((c : Thread nD τ).loc main_arg0)) shapeCasts_S4x2048x4096_S8192x4096 := by
  show StableHlo.after hostOps1 (W1 m ρ c) (Proc.devRef .tc main_v3) = _
  after_results
  rw [W1_of_ne m ρ c main_arg0 (by decide)]
  rfl

/-- The bias operand of the second region is the bias read as one row. -/
theorem V2_v4 (c : Dev nD) :
    V2 m ρ c main_v4 = shapeCast S1x11008 (m ((c : Thread nD τ).loc main_arg4)) shapeCasts_S11008_S1x11008 := by
  show StableHlo.after hostOps1 (W1 m ρ c) (Proc.devRef .tc main_v4) = _
  after_results
  rw [W1_of_ne m ρ c main_arg4 (by decide)]
  rfl

/-- The program's result is the second region's output array read as `[4, 2048, 11008]`. -/
theorem W4_v6 (c : Dev nD) :
    W4 m ρ c (Proc.devRef .tc main_v6)
      = shapeCast S4x2048x11008 (W3 m ρ c (Proc.devRef .tc main_v5)) shapeCasts_S8192x11008_S4x2048x11008 := by
  show StableHlo.after hostOps2 (W3 m ρ c) (Proc.devRef .tc main_v6) = _
  after_results
  rfl

/-! ## The regions' output arrays, as functions of the arguments -/

/-- After the first region the unpacked array is the dequantised array of the three quantisation arguments. -/
theorem W1_v0 (c : Dev nD) :
    W1 m ρ c (Proc.devRef .tc main_v0)
      = deq (m ((c : Thread nD τ).loc main_arg1)) (m ((c : Thread nD τ).loc main_arg2)) (m ((c : Thread nD τ).loc main_arg3)) :=
  (W1_arr m ρ c 3).trans (Cert.Hqq.Dequant.region0_final (V0 m ρ) c)

/-- After the second region its output array is the product plus bias of the three arrays it reads. -/
theorem W3_v5 (c : Dev nD) :
    W3 m ρ c (Proc.devRef .tc main_v5) = mm (V2 m ρ c main_v3) (V2 m ρ c main_v1) (V2 m ρ c main_v4) :=
  (W3_arr m ρ c 3).trans (Cert.Hqq.Matmul.region1_final (V2 m ρ) c)

/-! ## The three operands of the product at an index -/

/-- The weight operand at `(o, k)`: the specification's weight matrix. -/
theorem weight_at (c : Dev nD) (o : Fin 11008) (k : Fin 4096) :
    V2 m ρ c main_v1 (ix2 o k)
      = weight (deq (m ((c : Thread nD τ).loc main_arg1)) (m ((c : Thread nD τ).loc main_arg2)) (m ((c : Thread nD τ).loc main_arg3))) (ix2 o k) := by
  rw [V2_v1, W1_v0]
  exact shapeCast_apply _ shapeCasts_S64x704512_S11008x4096 (ix2 o k) (unflat o k)
    (by rw [Shape.rowMajor_val_two, Shape.rowMajor_val_two]
        have ho := o.isLt; have hk := k.isLt
        show (o.val * 4096 + k.val) / 704512 * 704512 + (o.val * 4096 + k.val) % 704512 = o.val * 4096 + k.val
        omega)

/-- The left operand at `(b·2048 + s, k)`: `x[b, s, k]`. -/
theorem x_at (c : Dev nD) (b : Fin 4) (s : Fin 2048) (k : Fin 4096) (r : Fin 8192) (hr : r.val = b.val * 2048 + s.val) :
    V2 m ρ c main_v3 (ix2 r k) = m ((c : Thread nD τ).loc main_arg0) (ix3 b s k) := by
  rw [V2_v3]
  exact shapeCast_apply _ shapeCasts_S4x2048x4096_S8192x4096 (ix2 r k) (ix3 b s k)
    (by rw [Shape.rowMajor_val_three, Shape.rowMajor_val_two]
        show (b.val * 2048 + s.val) * 4096 + k.val = r.val * 4096 + k.val
        rw [hr])

/-- The bias operand at `(0, o)`: `bias[o]`. -/
theorem bias_at (c : Dev nD) (o : Fin 11008) :
    V2 m ρ c main_v4 (ix2 (0 : Fin 1) o) = m ((c : Thread nD τ).loc main_arg4) (ix1 o) := by
  rw [V2_v4]
  exact shapeCast_apply _ shapeCasts_S11008_S1x11008 (ix2 (0 : Fin 1) o) (ix1 o)
    (by rw [Shape.rowMajor_val_one, Shape.rowMajor_val_two]
        show o.val = 0 * 11008 + o.val
        omega)

/-! ## The result -/

/-- The kernel program's result buffer at the end: the specification's function of the five arguments. -/
theorem result_eq (c : Dev nD) :
    W4 m ρ c (Proc.devRef .tc main_v6)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, s, o, rfl⟩ : ∃ (b : Fin 4) (s : Fin 2048) (o : Fin 11008), i = ix3 b s o := ⟨i 0, i 1, i 2, eq_ix3 i⟩
  have hr : b.val * 2048 + s.val < 8192 := by have := b.isLt; have := s.isLt; omega
  rw [W4_v6, W3_v5]
  refine (shapeCast_apply _ shapeCasts_S8192x11008_S4x2048x11008 (ix3 b s o) (ix2 (⟨b.val * 2048 + s.val, hr⟩ : Fin 8192) o)
    (by rw [Shape.rowMajor_val_two, Shape.rowMajor_val_three]; rfl)).trans ?_
  show mmAt (V2 m ρ c main_v3) (V2 m ρ c main_v1) (V2 m ρ c main_v4) ⟨b.val * 2048 + s.val, hr⟩ o
    = outAt _ (weight (deq _ _ _)) _ b s o
  unfold mmAt outAt
  rw [bias_at]
  refine congrArg (· + _) (Finset.sum_congr rfl fun k _ => ?_)
  rw [weight_at, x_at m ρ c b s k ⟨b.val * 2048 + s.val, hr⟩ rfl]

/-- Every weakly fair execution of the kernel program terminates without a fault, with the result buffer at the
    specification's function of the launch contents of the five arguments, and the arguments unchanged. -/
theorem run : θ_run defs (onTc (τ := τ) (main (F := Ideal))) ⟨m, fun _ => 0, ρ⟩ (fun r => ∀ c : Dev nD,
      r.2.mem ((c.tc : Thread nD τ).loc main_v6)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run_main (F := Ideal) m ρ)

end Cert.Hqq.Kernel

end
-- ==== Proof.lean ====
/-
  The claim: a 4-bit quantised linear layer computed by two kernels — unpack and dequantise the weights; a tiled matrix
  product plus bias — against the plain array program.

  Over the extended reals both programs compute `out[b, s, o] = (∑ k, x[b, s, k] · W[o, k]) + bias[o]`, where `W`, read in
  row-major order as `[64, 704512]`, has in rows 0..31 the high nibbles and in rows 32..63 the low nibbles of the packed
  words, each minus its column's zero point and times its column's scale (`Cert.Hqq.result`). The kernel additionally masks
  every word to its low byte before taking the nibbles, which changes neither bits 4..7 nor bits 0..3; its changes of
  float format are the identity; its tiles cover each output array exactly; and both sums run over the same index set,
  so no law beyond the definitions is used and the precondition is never opened.

  The three frames: the two kernel programs' are the generated frames; the reference's is its generated run with the
  result dropped. No rewrite was applied when the kernel was idealised, so nothing is to be preserved.
-/
import proofs.«409429_j39943195853112_2_alg».proof.Defs
import proofs.«409429_j39943195853112_2_alg».proof.Proof.Gen.Kernel
import proofs.«409429_j39943195853112_2_alg».proof.Proof.Gen.Kernel.Skeleton
import proofs.«409429_j39943195853112_2_alg».proof.Proof.Gen.Kernel.Launch
import proofs.«409429_j39943195853112_2_alg».proof.Proof.Gen.Kernel.Points
import proofs.«409429_j39943195853112_2_alg».proof.Proof.Gen.Kernel.Frame
import proofs.«409429_j39943195853112_2_alg».proof.Proof.Gen.KernelIdeal
import proofs.«409429_j39943195853112_2_alg».proof.Proof.Gen.KernelIdeal.Skeleton
import proofs.«409429_j39943195853112_2_alg».proof.Proof.Gen.KernelIdeal.Launch
import proofs.«409429_j39943195853112_2_alg».proof.Proof.Gen.KernelIdeal.Points
import proofs.«409429_j39943195853112_2_alg».proof.Proof.Gen.KernelIdeal.Frame
import proofs.«409429_j39943195853112_2_alg».proof.Proof.Gen.ReferenceIdeal
import proofs.«409429_j39943195853112_2_alg».proof.Proof.Gen.Pre_finite_inputs
import proofs.«409429_j39943195853112_2_alg».proof.Proof.Gen.ReferenceIdeal.Run
import proofs.«409429_j39943195853112_2_alg».proof.Proof.Gen.ReferenceIdeal.Read
import proofs.«409429_j39943195853112_2_alg».proof.Proof.Spec
import proofs.«409429_j39943195853112_2_alg».proof.Proof.RefValue
import proofs.«409429_j39943195853112_2_alg».proof.Proof.KernelValue
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernel_ideal : Cert.frame_KernelIdeal :=
  fun m ρ _ => Cert.KernelIdeal.Gen.frame m ρ

theorem frame_reference_ideal : Cert.frame_ReferenceIdeal :=
  fun m ρ _ => (θ_run Cert.ReferenceIdeal.defs _ _).mono (fun _ h c => (h c).2) (Cert.ReferenceIdeal.Value.run (F := Ideal) m ρ)

/-- Both programs end with the specification's function of the arguments in their result buffers; the arguments agree,
    so the two results are equal. -/
theorem algebraic : Cert.algebraic_KernelIdeal_ReferenceIdeal := by
  intro m ρ m' ρ' _ hagree
  refine ⟨_, Cert.Hqq.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Hqq.Ref.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
